-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S1024x8192 : Shape := ⟨2, ![1024, 8192]⟩
abbrev S8192x8192 : Shape := ⟨2, ![8192, 8192]⟩
abbrev S128x1024 : Shape := ⟨2, ![128, 1024]⟩
abbrev S128x8192 : Shape := ⟨2, ![128, 8192]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x8192, .bf16⟩
  | .hbm, ⟨4, _⟩ => ⟨S1024x8192, .f32⟩
  | .hbm, ⟨5, _⟩ => ⟨S1024x8192, .f32⟩
  | .hbm, ⟨6, _⟩ => ⟨S1024x8192, .bf16⟩
  | .hbm, ⟨7, _⟩ => ⟨S8192x8192, .f32⟩
  | .local _ .vmem, ⟨0, _⟩ => ⟨S128x1024, .f32⟩
  | .local _ .vmem, ⟨1, _⟩ => ⟨S128x1024, .f32⟩
  | .local _ .vmem, ⟨2, _⟩ => ⟨S1024x8192, .bf16⟩
  | .local _ .vmem, ⟨3, _⟩ => ⟨S1024x8192, .bf16⟩
  | .local _ .vmem, ⟨4, _⟩ => ⟨S128x8192, .f32⟩
  | .local _ .vmem, ⟨5, _⟩ => ⟨S128x8192, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8192x1024_S1024x8192_1_0 : S8192x1024.Transposes [1, 0] S1024x8192
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  reduces_S128x8192_S128 : S128x8192.Reduces [1] S128
  shapeCasts_S128_S128x1 : S128.ShapeCasts S128x1
  broadcasts_S128x1_S128x8192 : S128x1.Broadcasts S128x8192
  inb_S128x8192_S128x8192_0_0 : ∀ a, (![0, 0] : Fin 2 → Nat) a + S128x8192.size a ≤ S128x8192.size a
  h_S128x8192 : 0 < S128x8192.numel
  dot_S128x1024_S1024x8192_S128x8192_1_0_0_1_n_n_wf : DotDims.WF S128x1024 S1024x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8192.size a ≤ S1024x8192.size a
  hwx0_1 : ∀ i : grid0.Coords, EltTy.bits .bf16 = 32 ∨ (Rect.block (s := S1024x8192) S1024x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x8192.size a ≤ S1024x8192.size a
  hwx0_2 : ∀ i : grid0.Coords, EltTy.bits .bf16 = 32 ∨ (Rect.block (s := S1024x8192) S1024x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)

variable [Facts₀]

def dot_S128x1024_S1024x8192_S128x8192_1_0_0_1_n_n : DotDims S128x1024 S1024x8192 S128x8192 where
  lhsContracting := [1]
  rhsContracting := [0]
  lhsNonContracting := [0]
  rhsNonContracting := [1]
  lhsBatch := []
  rhsBatch := []
  wf := dot_S128x1024_S1024x8192_S128x8192_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.SoftmaxSpec.lean ====
/-
  Row-wise softmax of the energies `out_state · historyᵀ`, as ONE function of the two argument arrays, and the
  algebra that joins its two spellings.

  For a state row `i` and a history row `j` the energy is `e i j = ∑ k, a (i, k) * h (j, k)`; the score is
  `exp (e i j - M i) / ∑ j', exp (e i j' - M i)` with `M i` the maximum of row `i` of the energies, folded from `-∞`.

  One spelling computes each energy as a compensated sum of three products, splitting both factors into a leading part
  and a remainder, `x = x + (x - x)`: on the extended reals the remainder `x - x` is `0` exactly when `x` is a real
  number (at `±∞` it is `-∞`), and a product with `0` is `0` everywhere, so the two extra sums vanish for real entries.
  It also multiplies by the reciprocal of the denominator instead of dividing by it: the two agree when the denominator
  is not zero, and it is a sum of exponentials of real numbers, each positive.
-/
import Idealize.ShloMosaic.PureOps.Ideal
import Idealize.ShloMosaic.Lib.ValueIdx

noncomputable section

open scoped BigOperators

namespace Cert.Softmax

open Idealize.ShloMosaic Idealize.ShloMosaic.ValueIdx

/-! ## Real entries among the extended reals -/

/-- An extended real that is a real number. -/
def IsReal (x : EReal) : Prop := ∃ r : ℝ, x = (r : EReal)

/-- A real number minus itself is zero (at an infinity the difference is `-∞`). -/
theorem sub_self_of_isReal {x : EReal} (hx : IsReal x) : x - x = 0 := by
  obtain ⟨r, rfl⟩ := hx
  rw [← EReal.coe_sub, sub_self, EReal.coe_zero]

/-- The embedding of the reals commutes with finite sums. -/
theorem coe_sum {κ : Type*} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section Algebra
variable {ι κ : Type*} [Fintype ι] [Fintype κ]

/-- A sum of products of real numbers is a real number. -/
theorem isReal_sum_mul (u v : κ → EReal) (hu : ∀ k, IsReal (u k)) (hv : ∀ k, IsReal (v k)) : IsReal (∑ k, u k * v k) := by
  choose ur hur using hu
  choose vr hvr using hv
  refine ⟨∑ k, ur k * vr k, ?_⟩
  rw [coe_sum]
  exact Finset.sum_congr rfl fun k _ => by rw [hur k, hvr k, EReal.coe_mul]

/-- The compensated sum: with both factors split into themselves and the remainder `x - x`, the two cross terms
    vanish on real entries and the three sums are the plain sum of products. -/
theorem compensated_sum (u v : κ → EReal) (hu : ∀ k, IsReal (u k)) (hv : ∀ k, IsReal (v k)) :
    (∑ k, u k * v k) + (∑ k, u k * (v k - v k)) + (∑ k, (u k - u k) * v k) = ∑ k, u k * v k := by
  have h1 : ∑ k, u k * (v k - v k) = 0 :=
    Finset.sum_eq_zero fun k _ => by rw [sub_self_of_isReal (hv k), mul_zero]
  have h2 : ∑ k, (u k - u k) * v k = 0 :=
    Finset.sum_eq_zero fun k _ => by rw [sub_self_of_isReal (hu k), zero_mul]
  rw [h1, h2, add_zero, add_zero]

/-- The maximum of a nonempty finite family of real numbers, folded from `-∞`, is a real number: it is below `+∞`
    because every member is, and above `-∞` because it is at least any one member. -/
theorem isReal_fold_max [Nonempty ι] (e : ι → EReal) (he : ∀ j, IsReal (e j)) :
    IsReal ((Finset.univ : Finset ι).fold max ⊥ e) := by
  have hlt : (Finset.univ : Finset ι).fold max ⊥ e < ⊤ := by
    rw [Finset.fold_max_lt]
    exact ⟨bot_lt_top, fun j _ => by obtain ⟨r, hr⟩ := he j; rw [hr]; exact EReal.coe_lt_top r⟩
  have hgt : ⊥ < (Finset.univ : Finset ι).fold max ⊥ e := by
    obtain ⟨j⟩ := ‹Nonempty ι›
    obtain ⟨r, hr⟩ := he j
    refine lt_of_lt_of_le (EReal.bot_lt_coe r) ?_
    rw [← hr, Finset.le_fold_max]
    exact Or.inr ⟨j, Finset.mem_univ _, le_rfl⟩
  exact ⟨((Finset.univ : Finset ι).fold max ⊥ e).toReal, (EReal.coe_toReal hlt.ne hgt.ne').symm⟩

/-- The softmax denominator of a nonempty family of real energies is not zero: every term is the exponential of a
    real number, so the sum is a positive real. -/
theorem sum_exp_ne_zero [Nonempty ι] (e : ι → EReal) (he : ∀ j, IsReal (e j)) :
    ∑ j, Ideal.exp (e j - (Finset.univ : Finset ι).fold max ⊥ e) ≠ 0 := by
  obtain ⟨mr, hm⟩ := isReal_fold_max e he
  choose er her using he
  have hs : ∑ j, Ideal.exp (e j - (Finset.univ : Finset ι).fold max ⊥ e) = ((∑ j, Real.exp (er j - mr) : ℝ) : EReal) := by
    rw [coe_sum]
    refine Finset.sum_congr rfl fun j _ => ?_
    rw [hm, her j, ← EReal.coe_sub]
    rfl
  rw [hs]
  have hpos : 0 < ∑ j, Real.exp (er j - mr) := Finset.sum_pos (fun j _ => Real.exp_pos _) Finset.univ_nonempty
  exact_mod_cast hpos.ne'

/-- Multiplying by the reciprocal of a nonzero extended real is dividing by it. -/
theorem mul_div_one (x l : EReal) (hl : l ≠ 0) : x * Ideal.div 1 l = Ideal.div x l := by
  unfold Ideal.div
  rw [if_neg hl, if_neg hl, one_mul]

/-- The softmax weight of entry `j` of a family of energies: the exponential of its distance below the maximum. -/
def weight (e : ι → EReal) (j : ι) : EReal := Ideal.exp (e j - (Finset.univ : Finset ι).fold max ⊥ e)

/-- THE LAW. For one state row `u` and the history rows `v j`, all real: the softmax of the compensated energies, taken
    as weight times the reciprocal of the weights' sum, is the softmax of the plain energies, taken as a quotient. -/
theorem compensated_softmax [Nonempty ι] (u : κ → EReal) (v : ι → κ → EReal) (hu : ∀ k, IsReal (u k))
    (hv : ∀ j k, IsReal (v j k)) (j : ι) :
    weight (fun j => (∑ k, u k * v j k) + (∑ k, u k * (v j k - v j k)) + (∑ k, (u k - u k) * v j k)) j
        * Ideal.div 1 (∑ j', weight (fun j => (∑ k, u k * v j k) + (∑ k, u k * (v j k - v j k)) + (∑ k, (u k - u k) * v j k)) j')
      = Ideal.div (weight (fun j => ∑ k, u k * v j k) j) (∑ j', weight (fun j => ∑ k, u k * v j k) j') := by
  have he : (fun j => (∑ k, u k * v j k) + (∑ k, u k * (v j k - v j k)) + (∑ k, (u k - u k) * v j k))
      = fun j => ∑ k, u k * v j k := funext fun j => compensated_sum u (v j) hu (hv j)
  rw [he]
  exact mul_div_one _ _ (sum_exp_ne_zero _ fun j => isReal_sum_mul u (v j) hu (hv j))

end Algebra

/-! ## The score array -/

/-- The energy of state row `i` against history row `j`: the dot product of the two rows. -/
def energy (a h : (⟨2, ![8192, 1024]⟩ : Shape).Idx → EReal) (i j : Fin 8192) : EReal :=
  ∑ k : Fin 1024, a (ix2 i k) * h (ix2 j k)

/-- The score array: at `(i, j)` the softmax weight of energy `(i, j)` within row `i`, over the row's total weight. -/
def score (a h : (⟨2, ![8192, 1024]⟩ : Shape).Idx → EReal) : (⟨2, ![8192, 8192]⟩ : Shape).Idx → EReal :=
  fun x => Ideal.div (weight (energy a h (x 0)) (x 1)) (∑ j : Fin 8192, weight (energy a h (x 0)) j)

end Cert.Softmax

end
-- ==== Proof.Finite.lean ====
/-
  The precondition, read: every entry of both argument arrays is a real number.

  The precondition compares each entry's absolute value with `+∞` and takes the conjunction over each array, then of
  the two arrays. On the extended reals `|x| < +∞` fails exactly at the two infinities, where `|x| = +∞`.
-/
import proofs.«404737_j1786706395393_3_alg».proof.Pre_finite_inputs
import proofs.«404737_j1786706395393_3_alg».proof.Proof.Gen.Pre_finite_inputs
import proofs.«404737_j1786706395393_3_alg».proof.Proof.SoftmaxSpec
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic Idealize.ShloMosaic.ValueIdx Cert.Softmax

/-- The scalar shape has one index. -/
instance : Subsingleton S_.Idx := ⟨fun a b => funext fun d => d.elim0⟩

/-- An extended real whose absolute value compares below `+∞` is a real number. -/
theorem isReal_of_abs_lt (x : EReal)
    (h : Ideal.cmp .olt (max x (-x)) (Ideal.ofBits .f32 0x7F800000#32) = 1#1) : IsReal x := by
  induction x using EReal.rec with
  | bot => simp [Ideal.cmp, Ideal.ofBits, Ideal.ieee] at h
  | top => simp [Ideal.cmp, Ideal.ofBits, Ideal.ieee] at h
  | coe r => exact ⟨r, rfl⟩

/-- Under the precondition both arrays hold real numbers only. -/
theorem isReal_of_pre (a g : FVec Ideal S8192x1024 .f32) (h : fn (F := Ideal) a g = fun _ => 1#1) :
    (∀ i, IsReal (a i)) ∧ (∀ i, IsReal (g i)) := by
  have h0 := congrFun h ix0
  dsimp only [fn] at h0
  obtain ⟨h1, h2⟩ := IntOp.andi_eq_one.1 h0
  exact ⟨fun i => isReal_of_abs_lt _ (Host.reduce_andi_all _ _ _ _ _ h1 i),
    fun i => isReal_of_abs_lt _ (Host.reduce_andi_all _ _ _ _ _ h2 i)⟩

end Cert.Pre_finite_inputs.Finite

end
-- ==== Proof.RefScore.lean ====
/-
  The reference's result array is the score array, index by index.

  The reference multiplies the state by the transposed history in one product, so its energy at `(i, j)` is the dot
  product of state row `i` and history row `j`; it takes each row's maximum by a fold from `-∞` (and once more against
  `-∞`, which changes nothing), exponentiates the distances below it, sums each row from `0`, and divides.
-/
import proofs.«404737_j1786706395393_3_alg».proof.Proof.Gen.ReferenceIdeal.Read
import proofs.«404737_j1786706395393_3_alg».proof.Proof.SoftmaxSpec
import Idealize.ShloMosaic.PureOps.Ideal.Laws
import Idealize.ShloMosaic.Lib.ValueIdx

noncomputable section

open scoped BigOperators

namespace Cert.ReferenceIdeal.RefScore

open Cert.ReferenceIdeal Cert.ReferenceIdeal.Gen Cert.ReferenceIdeal.Read
open Idealize.ShloMosaic Idealize.ShloMosaic.ValueIdx Cert.Softmax

variable (a h : (⟨S8192x1024, .f32⟩ : BufTy).Contents (Elt Ideal))

/-- The reduction of the energies over their second axis, as a shape fact that names the inserted coordinate. -/
theorem reduces_rows : S8192x8192.Reduces [1] S8192 := by decide

/-- `-∞`'s pattern denotes `⊥`. -/
theorem ofBits_neg_inf : Ideal.ofBits .f32 0xFF800000#32 = ⊥ := by simp [Ideal.ofBits, Ideal.ieee]

/-! ## The indices the stages read at -/

theorem lidx_ix2 (p q : Fin 8192) (k : Fin 1024) : lidx_main_v0 (ix2 p q) k = ix2 p k :=
  funext fun d => Fin.ext (by match d with | ⟨0, _⟩ => rfl | ⟨1, _⟩ => rfl)
theorem ridx_ix2 (p q : Fin 8192) (k : Fin 1024) : ridx_main_v0 (ix2 p q) k = ix2 q k :=
  funext fun d => Fin.ext (by match d with | ⟨0, _⟩ => rfl | ⟨1, _⟩ => rfl)
theorem lift_ix1 (p k : Fin 8192) : reduces_rows.lift (ix1 p) k = ix2 p k :=
  funext fun d => Fin.ext (by match d with | ⟨0, _⟩ => rfl | ⟨1, _⟩ => rfl)
theorem idx_row (p q : Fin 8192) : idx_main_v4 (idx_main_v5 (ix2 p q)) = ix1 p :=
  funext fun d => Fin.ext (by match d with | ⟨0, _⟩ => rfl)
theorem idx_row' (p q : Fin 8192) : idx_main_v9 (idx_main_v10 (ix2 p q)) = ix1 p :=
  funext fun d => Fin.ext (by match d with | ⟨0, _⟩ => rfl)
theorem idx_col (p k : Fin 8192) : idx_main_v8 (ix1 p) k = ix2 p k :=
  funext fun d => Fin.ext (by match d with | ⟨0, _⟩ => rfl | ⟨1, _⟩ => rfl)

/-! ## The stages -/

/-- The product's entry `(p, q)` is the energy of state row `p` against history row `q`. -/
theorem energy_apply (p q : Fin 8192) : val_main_v0 (F := Ideal) a h (ix2 p q) = energy a h p q := by
  rw [val_main_v0_apply]
  simp only [lidx_ix2, ridx_ix2]
  rfl

/-- The row maximum, folded from `-∞` and compared once more with `-∞`. -/
theorem rowMax_apply (p : Fin 8192) :
    val_main_v3 (F := Ideal) a h (ix1 p) = (Finset.univ : Finset (Fin 8192)).fold max ⊥ (energy a h p) := by
  rw [val_main_v3_apply, val_main_v2_apply, val_main_cst_0_apply]
  unfold val_main_v1
  rw [Host.reduce_eq_fold_single FloatOps.maximumf _ _ reducesTo_S8192x8192_S8192_d1 reduces_rows h_S_]
  show max (Ideal.ofBits .f32 0xFF800000#32)
    ((Finset.univ : Finset (Fin 8192)).fold max (Ideal.ofBits .f32 0xFF800000#32) _) = _
  rw [ofBits_neg_inf, max_bot_left]
  refine Finset.fold_congr fun k _ => ?_
  show val_main_v0 (F := Ideal) a h (reduces_rows.lift (ix1 p) k) = _
  rw [lift_ix1, energy_apply]

/-- The exponential of an energy's distance below its row's maximum is its weight. -/
theorem weight_apply (p q : Fin 8192) : val_main_v7 (F := Ideal) a h (ix2 p q) = weight (energy a h p) q := by
  rw [val_main_v7_apply, val_main_v6_apply, val_main_v5_apply, val_main_v4_apply, idx_row, energy_apply, rowMax_apply]
  rfl

/-- The row's sum of weights, from `0`. -/
theorem rowSum_apply (p : Fin 8192) :
    val_main_v8 (F := Ideal) a h (ix1 p) = ∑ j : Fin 8192, weight (energy a h p) j := by
  rw [val_main_v8_apply]
  simp only [idx_col, weight_apply]
  show Ideal.ofBits .f32 0x00000000#32 + _ = _
  rw [Ideal.ofBits_zero_f32, zero_add]

/-- THE REFERENCE IS THE SCORE ARRAY. -/
theorem result_eq : val_main_v11 (F := Ideal) a h = score a h := by
  funext x
  obtain ⟨p, q, rfl⟩ : ∃ (p q : Fin 8192), x = ix2 p q := ⟨x 0, x 1, eq_ix2 x⟩
  rw [val_main_v11_apply, val_main_v10_apply, val_main_v9_apply, idx_row', weight_apply, rowSum_apply]
  rfl

end Cert.ReferenceIdeal.RefScore

end
-- ==== Proof.KernelBlock.lean ====
/-
  One grid point's block of scores, entry by entry, from the three blocks the body loads.

  The body holds a `128 × 1024` block `x` of states and two whole `1024 × 8192` arrays `y`, `z` (the transposed history's
  leading part and remainder). Its energies are the sum of three matrix products, `x·y + x·z + (x - x)·y`, each into a
  zero accumulator, so entry `(p, j)` is a sum of three sums over the contracted coordinate. Row by row it then takes the
  maximum (folded from `-∞`), exponentiates the distances below it, sums them, and multiplies each weight by the
  reciprocal of its row's sum; the maxima and the sums are kept as `128 × 1` columns and broadcast along the rows.
-/
import proofs.«404737_j1786706395393_3_alg».proof.Proof.Gen.KernelIdeal.Skeleton
import proofs.«404737_j1786706395393_3_alg».proof.Proof.SoftmaxSpec
import Idealize.ShloMosaic.PureOps.Ideal.Laws
import Idealize.ShloMosaic.Lib.ValueIdx
import Idealize.ShloMosaic.Lib.Pipeline.Value

noncomputable section

open scoped BigOperators

namespace Cert.KernelIdeal.Block

open Cert.KernelIdeal Cert.KernelIdeal.Gen
open Idealize.ShloMosaic Idealize.ShloMosaic.ValueIdx Cert.Softmax

/-! ## Bit patterns -/

theorem ofBits_neg_inf : Ideal.ofBits .f32 0xFF800000#32 = ⊥ := by simp [Ideal.ofBits, Ideal.ieee]
theorem ofBits_one : Ideal.ofBits .f32 0x3F800000#32 = 1 := by simp [Ideal.ofBits, Ideal.ieee, -EReal.coe_mul]; norm_num

/-! ## A matrix product `[128, 1024] × [1024, 8192]` at an entry -/

theorem lhs_0 (i : S128x8192.Idx) (q : dot_S128x1024_S1024x8192_S128x8192_1_0_0_1_n_n.contr.Idx) :
    (dot_S128x1024_S1024x8192_S128x8192_1_0_0_1_n_n.lhsIdx i q 0).val = (i 0).val := by
  unfold DotDims.lhsIdx
  rw [dif_neg (show ¬(0 : Fin S128x1024.rank) ∈ dot_S128x1024_S1024x8192_S128x8192_1_0_0_1_n_n.lhsBatch by decide), dif_pos (show (0 : Fin S128x1024.rank) ∈ dot_S128x1024_S1024x8192_S128x8192_1_0_0_1_n_n.lhsNonContracting by decide)]
  rfl
theorem lhs_1 (i : S128x8192.Idx) (q : dot_S128x1024_S1024x8192_S128x8192_1_0_0_1_n_n.contr.Idx) :
    (dot_S128x1024_S1024x8192_S128x8192_1_0_0_1_n_n.lhsIdx i q 1).val = (q ⟨0, by decide⟩).val :=
  dot_S128x1024_S1024x8192_S128x8192_1_0_0_1_n_n.lhsIdx_val_of_single rfl i q
theorem rhs_0 (i : S128x8192.Idx) (q : dot_S128x1024_S1024x8192_S128x8192_1_0_0_1_n_n.contr.Idx) :
    (dot_S128x1024_S1024x8192_S128x8192_1_0_0_1_n_n.rhsIdx i q 0).val = (q ⟨0, by decide⟩).val :=
  dot_S128x1024_S1024x8192_S128x8192_1_0_0_1_n_n.rhsIdx_val_of_single rfl i q
theorem rhs_1 (i : S128x8192.Idx) (q : dot_S128x1024_S1024x8192_S128x8192_1_0_0_1_n_n.contr.Idx) :
    (dot_S128x1024_S1024x8192_S128x8192_1_0_0_1_n_n.rhsIdx i q 1).val = (i 1).val := by
  unfold DotDims.rhsIdx
  rw [dif_neg (show ¬(1 : Fin S1024x8192.rank) ∈ dot_S128x1024_S1024x8192_S128x8192_1_0_0_1_n_n.rhsBatch by decide), dif_pos (show (1 : Fin S1024x8192.rank) ∈ dot_S128x1024_S1024x8192_S128x8192_1_0_0_1_n_n.rhsNonContracting by decide)]
  rfl

/-- Entry `(p, q)` of a product into the zero accumulator: the sum over `k` of row `p` of the left factor times
    column `q` of the right one. -/
theorem matmul_ix2 {φ₁ φ₂ : FTy} (l : FVec Ideal S128x1024 φ₁) (r : FVec Ideal S1024x8192 φ₂) (p : Fin 128) (q : Fin 8192) :
    matmul dot_S128x1024_S1024x8192_S128x8192_1_0_0_1_n_n none l r (constant (F := Ideal) S128x8192 .f32 0x00000000#32) (ix2 p q)
      = ∑ k : Fin 1024, l (ix2 p k) * r (ix2 k q) := by
  simp only [matmul]
  rw [Ideal.matmul_constant_zero_apply, ← Equiv.sum_comp (contrEquiv1 dot_S128x1024_S1024x8192_S128x8192_1_0_0_1_n_n 1024 rfl rfl).symm]
  refine Finset.sum_congr rfl fun k _ => ?_
  have hk := contrEquiv1_symm_val dot_S128x1024_S1024x8192_S128x8192_1_0_0_1_n_n 1024 rfl rfl k
  have el : dot_S128x1024_S1024x8192_S128x8192_1_0_0_1_n_n.lhsIdx (ix2 p q) ((contrEquiv1 dot_S128x1024_S1024x8192_S128x8192_1_0_0_1_n_n 1024 rfl rfl).symm k) = ix2 p k := funext fun a => Fin.ext (by
    match a with
    | ⟨0, _⟩ => exact lhs_0 _ _
    | ⟨1, _⟩ => exact (lhs_1 _ _).trans hk)
  have er : dot_S128x1024_S1024x8192_S128x8192_1_0_0_1_n_n.rhsIdx (ix2 p q) ((contrEquiv1 dot_S128x1024_S1024x8192_S128x8192_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-! ## Rows: reductions over the second axis, and columns broadcast back -/

/-- A row's index with the column coordinate inserted. -/
theorem lift_ix1 (p : Fin 128) (k : Fin 8192) : reduces_S128x8192_S128.lift (ix1 p) k = ix2 p k :=
  funext fun d => Fin.ext (by match d with | ⟨0, _⟩ => rfl | ⟨1, _⟩ => rfl)

/-- The row maximum from `-∞`. -/
theorem rowMax_ix1 (s : FVec Ideal S128x8192 .f32) (hφ : FKind.Formats .f32)
    (hacc : (0xFF800000#32 : BitVec 32) = FKind.maximumf.neutral .f32 hφ) (p : Fin 128) :
    multiReduction (F := Ideal) .maximumf [1] S128 s 0xFF800000#32 reduces_S128x8192_S128 hφ hacc (ix1 p)
      = (Finset.univ : Finset (Fin 8192)).fold max ⊥ (fun j => s (ix2 p j)) := by
  refine (Ideal.multiReduction_maximumf_single s 0xFF800000#32 reduces_S128x8192_S128 hφ hacc (ix1 p)).trans ?_
  show (Finset.univ : Finset (Fin 8192)).fold max (Ideal.ofBits .f32 0xFF800000#32) _ = _
  rw [ofBits_neg_inf]
  exact Finset.fold_congr fun k _ => congrArg s (lift_ix1 p k)

/-- The row sum. -/
theorem rowSum_ix1 (s : FVec Ideal S128x8192 .f32) (hφ : FKind.Formats .f32)
    (hacc : (0x00000000#32 : BitVec 32) = FKind.add.neutral .f32 hφ) (p : Fin 128) :
    multiReduction (F := Ideal) .add [1] S128 s 0x00000000#32 reduces_S128x8192_S128 hφ hacc (ix1 p)
      = ∑ j : Fin 8192, s (ix2 p j) :=
  (Ideal.multiReduction_add_single s 0x00000000#32 reduces_S128x8192_S128 hφ hacc (ix1 p)).trans
    (Finset.sum_congr rfl fun k _ => congrArg s (lift_ix1 p k))

/-- A `[128]` vector kept as a `[128, 1]` column reads, at `(p, u)`, the vector at `p`. -/
theorem column_ix2 {α : Type} (c : S128.Idx → α) (p : Fin 128) (u : Fin 1) :
    shapeCast S128x1 c shapeCasts_S128_S128x1 (ix2 p u) = c (ix1 p) :=
  shapeCast_apply c shapeCasts_S128_S128x1 _ _ (by
    have hu : u.val = 0 := by omega
    rw [Shape.rowMajor_val_two, Shape.rowMajor_val_one]
    show p.val = p.val * 1 + u.val
    rw [hu, Nat.mul_one, Nat.add_zero])

/-- A `[128, 1]` column broadcast along the rows reads, at `(p, q)`, the column at `p`. -/
theorem alongRows_ix2 {α : Type} (d : S128x1.Idx → α) (p : Fin 128) (q : Fin 8192) :
    broadcastTo S128x8192 d broadcasts_S128x1_S128x8192 (ix2 p q) = d (ix2 p (0 : Fin 1)) := by
  refine broadcastTo_apply d broadcasts_S128x1_S128x8192 (ix2 p q) (ix2 p (0 : Fin 1)) fun ax => ?_
  match ax with
  | ⟨0, _⟩ =>
    show p.val = if (128 : Nat) = 1 then 0 else p.val
    rw [if_neg (by decide)]
  | ⟨1, _⟩ => rfl

/-! ## The block -/

variable (x : FVec Ideal S128x1024 .f32) (y z : FVec Ideal S1024x8192 .bf16)

/-- The compensated energy of block row `p` against column `j`. -/
def energy3 (p : Fin 128) (j : Fin 8192) : EReal :=
  (∑ k : Fin 1024, x (ix2 p k) * y (ix2 k j)) + (∑ k : Fin 1024, x (ix2 p k) * z (ix2 k j))
    + (∑ k : Fin 1024, (x (ix2 p k) - x (ix2 p k)) * y (ix2 k j))

/-- The body's energies: the three products summed. -/
def energies : FVec Ideal S128x8192 .f32 :=
  addf (addf
      (matmul dot_S128x1024_S1024x8192_S128x8192_1_0_0_1_n_n none (truncf .bf16 x bitsLt_bf16_f32) (shapeCast S1024x8192 y shapeCasts_S1024x8192_S1024x8192) (constant (F := Ideal) S128x8192 .f32 0x00000000#32))
      (matmul dot_S128x1024_S1024x8192_S128x8192_1_0_0_1_n_n none (truncf .bf16 x bitsLt_bf16_f32) (shapeCast S1024x8192 z shapeCasts_S1024x8192_S1024x8192) (constant (F := Ideal) S128x8192 .f32 0x00000000#32)))
    (matmul dot_S128x1024_S1024x8192_S128x8192_1_0_0_1_n_n none (truncf .bf16 (subf x x) bitsLt_bf16_f32) (shapeCast S1024x8192 y shapeCasts_S1024x8192_S1024x8192) (constant (F := Ideal) S128x8192 .f32 0x00000000#32))

theorem energies_ix2 (p : Fin 128) (j : Fin 8192) : energies x y z (ix2 p j) = energy3 x y z p j := by
  unfold energies energy3
  rw [addf_apply, addf_apply, matmul_ix2, matmul_ix2, matmul_ix2, shapeCast_self, shapeCast_self]
  rfl

/-- The body's softmax of a block of energies: weights times the reciprocal of their row sums. -/
def softmaxRows (s : FVec Ideal S128x8192 .f32) : FVec Ideal S128x8192 .f32 :=
  let m : FVec Ideal S128x8192 .f32 := broadcastTo S128x8192 (shapeCast S128x1
    (multiReduction (F := Ideal) .maximumf [1] S128 s 0xFF800000#32 reduces_S128x8192_S128 (.inl rfl) rfl) shapeCasts_S128_S128x1) broadcasts_S128x1_S128x8192
  let w : FVec Ideal S128x8192 .f32 := exp (subf s m)
  mulf w (broadcastTo S128x8192 (divf (broadcast S128x1 (Scalar.ofBits (F := Ideal) .f32 0x3F800000#32))
    (shapeCast S128x1 (multiReduction (F := Ideal) .add [1] S128 w 0x00000000#32 reduces_S128x8192_S128 (.inl rfl) rfl) shapeCasts_S128_S128x1)) broadcasts_S128x1_S128x8192)

theorem softmaxRows_ix2 (s : FVec Ideal S128x8192 .f32) (p : Fin 128) (q : Fin 8192) :
    softmaxRows s (ix2 p q)
      = weight (fun j => s (ix2 p j)) q * Ideal.div 1 (∑ j : Fin 8192, weight (fun j => s (ix2 p j)) j) := by
  have hw : ∀ j : Fin 8192, (exp (subf s (broadcastTo S128x8192 (shapeCast S128x1
      (multiReduction (F := Ideal) .maximumf [1] S128 s 0xFF800000#32 reduces_S128x8192_S128 (.inl rfl) rfl) shapeCasts_S128_S128x1) broadcasts_S128x1_S128x8192)) : FVec Ideal S128x8192 .f32) (ix2 p j)
      = weight (fun j => s (ix2 p j)) j := fun j => by
    show Ideal.exp (s (ix2 p j) - broadcastTo S128x8192 _ broadcasts_S128x1_S128x8192 (ix2 p j)) = _
    rw [alongRows_ix2, column_ix2]
    exact congrArg (fun t => Ideal.exp (s (ix2 p j) - t)) (rowMax_ix1 s _ _ p)
  unfold softmaxRows
  dsimp only
  rw [mulf_apply, hw q, alongRows_ix2, divf_apply, column_ix2]
  exact congrArg₂ (fun a b => weight (fun j => s (ix2 p j)) q * Ideal.div a b) ofBits_one
    ((rowSum_ix1 _ _ _ p).trans (Finset.sum_congr rfl fun j _ => hw j))

/-- The stored payload is the softmax of the energies. -/
theorem pay_eq : k0_pay1 (F := Ideal) x y z = softmaxRows (energies x y z) := rfl

/-- ENTRY `(p, q)` OF THE BLOCK: the weight of the compensated energy `(p, q)` in its row, times the reciprocal of the
    row's total weight. -/
theorem pay_ix2 (p : Fin 128) (q : Fin 8192) :
    k0_pay1 (F := Ideal) x y z (ix2 p q)
      = weight (energy3 x y z p) q * Ideal.div 1 (∑ j : Fin 8192, weight (energy3 x y z p) j) := by
  rw [pay_eq, softmaxRows_ix2]
  simp only [energies_ix2]

/-! ## The block against the score array -/

/-- A block whose rows are the rows `r p` of the state array `a`, whose second factor is the history `g` transposed and
    whose third is that array's remainder `g - g`, holds rows `r p` of the score array of `a` and `g`, when every
    entry of `a` and `g` is a real number: the compensated softmax law, row by row. -/
theorem pay_score (a g : (⟨2, ![8192, 1024]⟩ : Shape).Idx → EReal) (ha : ∀ i, IsReal (a i)) (hg : ∀ i, IsReal (g i))
    (r : Fin 128 → Fin 8192)
    (hx : ∀ (p : Fin 128) (k : Fin 1024), x (ix2 p k) = a (ix2 (r p) k))
    (hy : ∀ (k : Fin 1024) (j : Fin 8192), y (ix2 k j) = g (ix2 j k))
    (hz : ∀ (k : Fin 1024) (j : Fin 8192), z (ix2 k j) = g (ix2 j k) - g (ix2 j k))
    (p : Fin 128) (q : Fin 8192) :
    k0_pay1 (F := Ideal) x y z (ix2 p q) = score a g (ix2 (r p) q) := by
  rw [pay_ix2]
  have he : energy3 x y z p = fun j => (∑ k : Fin 1024, a (ix2 (r p) k) * g (ix2 j k))
      + (∑ k : Fin 1024, a (ix2 (r p) k) * (g (ix2 j k) - g (ix2 j k)))
      + (∑ k : Fin 1024, (a (ix2 (r p) k) - a (ix2 (r p) k)) * g (ix2 j k)) := by
    funext j
    unfold energy3
    simp only [hx, hy, hz]
  rw [he]
  exact compensated_softmax (fun k => a (ix2 (r p) k)) (fun j k => g (ix2 j k)) (fun k => ha _) (fun j k => hg _) q

end Cert.KernelIdeal.Block

end
-- ==== Proof.ScoreArray.lean ====
/-
  The kernel's result array is the score array.

  The grid has 64 points; point `t` loads rows `128 t … 128 t + 127` of the states and the two whole `1024 × 8192` arrays
  the host prepared, and writes rows `128 t … 128 t + 127` of the result. The first prepared array is the history
  transposed; the second is that array minus itself (through two changes of format, which are the identity on extended
  reals). So each point's block is the rows `128 t + p` of the score array (the compensated softmax law, on real entries),
  the 64 row bands tile the result, and the array ends holding the score array.
-/
import proofs.«404737_j1786706395393_3_alg».proof.Proof.Gen.KernelIdeal.Value
import proofs.«404737_j1786706395393_3_alg».proof.Proof.KernelBlock
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.ScoreArray

open Cert.KernelIdeal Cert.KernelIdeal.Gen Cert.KernelIdeal.Value Cert.KernelIdeal.Block
open Idealize.ShloMosaic.ValueIdx Cert.Softmax

variable (m : (ℓ : Loc nD τ sig) → Buf (Elt Ideal) ℓ) (ρ : Dev nD → PrngReg)

theorem hz : (![0, 0] : Fin 2 → Nat) = fun _ => 0 := funext fun a => by fin_cases a <;> rfl

/-- The state array and the history array as launched on device `c`, as arrays of extended reals. -/
abbrev states (c : Dev nD) : FVec Ideal S8192x1024 .f32 := m ((c : Thread nD τ).loc main_arg0)
abbrev history (c : Dev nD) : FVec Ideal S8192x1024 .f32 := m ((c : Thread nD τ).loc main_arg1)

/-! ## The index maps over the grid -/

/-- Point `t` reads state band `t` and writes result band `t`; the two prepared arrays are read whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s band is row `128 t + p` of the array. -/
def row (t : Fin cfg0.N) (p : Fin 128) : Fin 8192 :=
  ⟨128 * t.val + p.val, by have := t.isLt; have hN : cfg0.N = 64 := N_0; have := p.isLt; omega⟩

/-! ## The two arrays the host prepares -/

/-- The leading part is the history transposed. -/
theorem lead_apply (c : Dev nD) (k : Fin 1024) (j : Fin 8192) :
    (V m c main_v1 : S1024x8192.Idx → EReal) (ix2 k j) = history m c (ix2 j k) := by
  have e : (V m c main_v1 : S1024x8192.Idx → EReal)
      = truncf (F := Ideal) .bf16 (transpose S1024x8192 [1, 0] (history m c) transposes_S8192x1024_S1024x8192_1_0) bitsLt_bf16_f32 := by
    dsimp only [Gen.V, Gen.hostOps0]; after_results
  rw [e]
  exact transpose_ix2_apply _ _ k j

/-- The remainder is the transposed history minus itself. -/
theorem rem_apply (c : Dev nD) (k : Fin 1024) (j : Fin 8192) :
    (V m c main_v4 : S1024x8192.Idx → EReal) (ix2 k j)
      = history m c (ix2 j k) - history m c (ix2 j k) := by
  have e : (V m c main_v4 : S1024x8192.Idx → EReal)
      = truncf (F := Ideal) .bf16 (subf
          (transpose S1024x8192 [1, 0] (history m c) transposes_S8192x1024_S1024x8192_1_0)
          (extf (F := Ideal) .f32 (truncf (F := Ideal) .bf16 (transpose S1024x8192 [1, 0] (history m c) transposes_S8192x1024_S1024x8192_1_0) bitsLt_bf16_f32) bitsLt_bf16_f32))
          bitsLt_bf16_f32 := by
    dsimp only [Gen.V, Gen.hostOps0]; after_results
  rw [e]
  show transpose S1024x8192 [1, 0] (history m c) transposes_S8192x1024_S1024x8192_1_0 (ix2 k j) - transpose S1024x8192 [1, 0] (history m c) transposes_S8192x1024_S1024x8192_1_0 (ix2 k j) = _
  rw [transpose_ix2_apply _ _ k j]

/-! ## The blocks a point loads -/

/-- The state block at point `t` is rows `128 t + p` of the state array. -/
theorem stateBlock_apply (c : Dev nD) (t : Fin cfg0.N) (p : Fin 128) (k : Fin 1024) :
    (iblk m c 0 t : Vec Ideal S128x1024 .f32) (ix2 p k) = states m c (ix2 (row t p) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 128 + 1 * p.val = 128 * t.val + p.val; omega
  | ⟨1, _⟩ => show win0_0.index t (1 : Fin 2) * 1024 + 1 * k.val = k.val; omega

/-- The second block at any point is the whole leading array. -/
theorem leadBlock_apply (c : Dev nD) (t : Fin cfg0.N) (k : Fin 1024) (j : Fin 8192) :
    (iblk m c 1 t : Vec Ideal S1024x8192 .bf16) (ix2 k j) = (V m c main_v1 : S1024x8192.Idx → EReal) (ix2 k j) := by
  obtain ⟨-, -, e0, e1, -⟩ := idx_facts t
  unfold iblk
  rw [View.read_apply]
  show V m c main_v1 _ = _
  congr 1
  funext a
  apply Fin.ext
  match a with
  | ⟨0, _⟩ => show win0_1.index t (0 : Fin 2) * 1024 + 1 * k.val = k.val; omega
  | ⟨1, _⟩ => show win0_1.index t (1 : Fin 2) * 8192 + 1 * j.val = j.val; omega

/-- The third block at any point is the whole remainder array. -/
theorem remBlock_apply (c : Dev nD) (t : Fin cfg0.N) (k : Fin 1024) (j : Fin 8192) :
    (iblk m c 2 t : Vec Ideal S1024x8192 .bf16) (ix2 k j) = (V m c main_v4 : S1024x8192.Idx → EReal) (ix2 k j) := by
  obtain ⟨-, -, -, -, e0, e1, -⟩ := idx_facts t
  unfold iblk
  rw [View.read_apply]
  show V m c main_v4 _ = _
  congr 1
  funext a
  apply Fin.ext
  match a with
  | ⟨0, _⟩ => show win0_2.index t (0 : Fin 2) * 1024 + 1 * k.val = k.val; omega
  | ⟨1, _⟩ => show win0_2.index t (1 : Fin 2) * 8192 + 1 * j.val = j.val; omega

/-! ## What a point writes back -/

/-- The block law at an index given by its coordinates as naturals: entry `j` of the payload is the score at any index
    `i` whose row is `r (j 0)` and whose column is `j 1`. -/
theorem pay_at (x : FVec Ideal S128x1024 .f32) (y z : FVec Ideal S1024x8192 .bf16)
    (a g : (⟨2, ![8192, 1024]⟩ : Shape).Idx → EReal) (ha : ∀ i, IsReal (a i)) (hg : ∀ i, IsReal (g i))
    (r : Fin 128 → Fin 8192)
    (hx : ∀ (p : Fin 128) (k : Fin 1024), x (ix2 p k) = a (ix2 (r p) k))
    (hy : ∀ (k : Fin 1024) (j : Fin 8192), y (ix2 k j) = g (ix2 j k))
    (hz : ∀ (k : Fin 1024) (j : Fin 8192), z (ix2 k j) = g (ix2 j k) - g (ix2 j k))
    (j : S128x8192.Idx) (i : S8192x8192.Idx) (hi0 : (i 0).val = (r (j 0)).val) (hi1 : (i 1).val = (j 1).val) :
    k0_pay1 (F := Ideal) x y z j = score a g i := by
  obtain ⟨p, q, rfl⟩ : ∃ (p : Fin 128) (q : Fin 8192), j = ix2 p q := ⟨j 0, j 1, eq_ix2 j⟩
  have hi : i = ix2 (r p) q := funext fun d => Fin.ext (by
    match d with
    | ⟨0, _⟩ => exact hi0
    | ⟨1, _⟩ => exact hi1)
  rw [hi]
  exact pay_score x y z a g ha hg r hx hy hz p q

/-- WHAT POINT `t` WRITES BACK is band `t` of the score array of the two argument arrays, when these hold real numbers. -/
theorem flushed_eq (c : Dev nD) (t : Fin cfg0.N)
    (ha : ∀ i, IsReal (states m c i))
    (hg : ∀ i, IsReal (history m c i)) :
    (dats m 0 c).flushed 3 t = ((cfg0.win 3).blk t).view.read (Elt Ideal)
      (score (states m c) (history m c)) := by
  obtain ⟨-, -, -, -, -, -, e0, e1⟩ := idx_facts t
  rw [flushed3]
  unfold out0_3
  rw [View.canon_unit_zero hz]
  simp only [View.ld_unit_zero (S := S128x1024) hz, View.ld_unit_zero (S := S1024x8192) hz]
  funext j
  show k0_pay1 (F := Ideal) (iblk m c 0 t) (iblk m c 1 t) (iblk m c 2 t) j
    = score (states m c) (history m c) (((cfg0.win 3).blk t).view.emb j)
  refine pay_at (iblk m c 0 t) (iblk m c 1 t) (iblk m c 2 t) _ _ ha hg (row t)
    (fun p k => stateBlock_apply m c t p k)
    (fun k j => (leadBlock_apply m c t k j).trans (lead_apply m c k j))
    (fun k j => (remBlock_apply m c t k j).trans (rem_apply m c k j)) j _ ?_ ?_
  · show win0_3.index t (0 : Fin 2) * 128 + 1 * (j 0).val = 128 * t.val + (j 0).val
    omega
  · show win0_3.index t (1 : Fin 2) * 8192 + 1 * (j 1).val = (j 1).val
    omega

/-! ## The bands tile the result -/

/-- An index of the result is in point `t`'s block iff each coordinate is in the block's range on its axis. -/
theorem mem_blk (t : Fin cfg0.N) (i : S8192x8192.Idx) :
    i ∈ ((cfg0.win 3).blk t).view.set ↔ ∀ a : Fin 2, win0_3.index t a * S128x8192.size a ≤ (i a).val ∧ (i a).val < win0_3.index t a * S128x8192.size a + S128x8192.size a := by
  show i ∈ ((View.whole main_v5).slice (win0_3.rect t)).set ↔ _
  rw [View.set_slice_whole, Rect.mem_set_unit]
  exact Iff.rfl

/-- Every index of the result is in the band of its row: row `r` is written by point `r / 128`. -/
theorem cover (i : S8192x8192.Idx) : ∃ t : Fin cfg0.N, (cfg0.win 3).flush t = true ∧ i ∈ ((cfg0.win 3).blk t).view.set := by
  have hN : cfg0.N = 64 := N_0
  have hi0 : (i 0).val < 8192 := (i 0).isLt
  have hi1 : (i 1).val < 8192 := (i 1).isLt
  let t : Fin cfg0.N := ⟨(i 0).val / 128, by omega⟩
  obtain ⟨-, -, -, -, -, -, e0, e1⟩ := idx_facts t
  have ht : t.val = (i 0).val / 128 := rfl
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 8192 ≤ (i 1).val ∧ (i 1).val < win0_3.index t (1 : Fin 2) * 8192 + 8192; omega

/-- THE RESULT ARRAY after the run is the score array of the two argument arrays. -/
theorem final (c : Dev nD)
    (ha : ∀ i, IsReal (states m c i))
    (hg : ∀ i, IsReal (history m c i)) :
    (dats m 0 c).arrAt 3 cfg0.N = score (states m c) (history m c) :=
  (dats m 0 c).arrAt_eq_of_cover 3 (score (states m c) (history m c))
    (fun t _ => flushed_eq m c t ha hg) cover

/-! ## The run, read -/

/-- From a memory whose two argument arrays hold real numbers, every weakly fair execution ends with the result array
    at the score array and the arguments unchanged. -/
theorem run (hreal : ∀ c : Dev nD,
      (∀ i, IsReal (states m c i))
      ∧ ∀ i, IsReal (history m c i)) :
    θ_run defs (onTc (τ := τ) (main (F := Ideal))) ⟨m, fun _ => 0, ρ⟩ fun r => ∀ c : Dev nD,
      r.2.mem ((c : Thread nD τ).loc main_v5) = score (states m c) (history m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c).1 (hreal c).2), (h c).2⟩)
    (run_blocks m ρ)

end Cert.KernelIdeal.ScoreArray

end
-- ==== Proof.lean ====
/-
  The kernel computes `softmax (out_state · historyᵀ)` row by row, 128 state rows per grid point against the whole
  history, and the reference computes the same with one matrix product and jax's softmax. Over the extended reals both
  result arrays are ONE function of the two argument arrays, the score array: at `(i, j)` the exponential of the
  energy `∑ k, out_state (i, k) * history (j, k)` less its row's maximum, over the row's sum of such exponentials.

  Three things separate the two programs, and each is an algebraic law:
  * the kernel splits both factors into a leading part and a remainder through a narrower float format and sums three
    products; a change of format is the identity here, so the remainder is `x - x`, which is `0` for a real `x`, and the
    two extra products vanish — this is where the precondition is used: at an infinity `x - x` is `-∞`;
  * the kernel multiplies by the reciprocal of the row sum where the reference divides by it; the two agree because the
    row sum is not zero, being a sum of exponentials of real numbers;
  * the reference compares the row maximum once more with `-∞`, which is the identity.

  The frames of the kernel at both instances are the generated ones; the reference's frame is its generated run with
  the result dropped. The one rewrite of the idealization (a widening of a narrowing replaced by the value) is its rule's
  statement.
-/
import proofs.«404737_j1786706395393_3_alg».proof.Defs
import proofs.«404737_j1786706395393_3_alg».proof.Proof.Gen.Kernel
import proofs.«404737_j1786706395393_3_alg».proof.Proof.Gen.Kernel.Skeleton
import proofs.«404737_j1786706395393_3_alg».proof.Proof.Gen.Kernel.Launch
import proofs.«404737_j1786706395393_3_alg».proof.Proof.Gen.Kernel.Points
import proofs.«404737_j1786706395393_3_alg».proof.Proof.Gen.Kernel.Frame
import proofs.«404737_j1786706395393_3_alg».proof.Proof.Gen.KernelIdeal
import proofs.«404737_j1786706395393_3_alg».proof.Proof.Gen.KernelIdeal.Skeleton
import proofs.«404737_j1786706395393_3_alg».proof.Proof.Gen.KernelIdeal.Launch
import proofs.«404737_j1786706395393_3_alg».proof.Proof.Gen.KernelIdeal.Points
import proofs.«404737_j1786706395393_3_alg».proof.Proof.Gen.KernelIdeal.Frame
import proofs.«404737_j1786706395393_3_alg».proof.Proof.Gen.ReferenceIdeal
import proofs.«404737_j1786706395393_3_alg».proof.Proof.Gen.Pre_finite_inputs
import proofs.«404737_j1786706395393_3_alg».proof.Proof.Gen.KernelIdeal.Value
import proofs.«404737_j1786706395393_3_alg».proof.Proof.Gen.ReferenceIdeal.Run
import proofs.«404737_j1786706395393_3_alg».proof.Proof.Gen.ReferenceIdeal.Read
import proofs.«404737_j1786706395393_3_alg».proof.Proof.SoftmaxSpec
import proofs.«404737_j1786706395393_3_alg».proof.Proof.Finite
import proofs.«404737_j1786706395393_3_alg».proof.Proof.RefScore
import proofs.«404737_j1786706395393_3_alg».proof.Proof.KernelBlock
import proofs.«404737_j1786706395393_3_alg».proof.Proof.ScoreArray
import Idealize.ShloMosaic.Adequacy
import Idealize.ShloMosaic.Init

noncomputable section

namespace Cert.Proof

open Idealize.ShloMosaic Idealize.ShloMosaic.TcCoe Idealize.SL.Sem Cert.Softmax

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: narrowing to bf16 and widening back is the identity on extended reals, and the
    rounding through bf16 on words. -/
theorem preserves : Cert.preserves_Kernel_KernelIdeal :=
  IdealRules.truncf_extf.statement Cert.KernelIdeal.S128x1024 .f32 .bf16

/-- From memories that agree on the arguments, which hold real numbers, both programs end with the score array of the
    arguments in their result: the kernel band by band, the reference stage by stage. -/
theorem algebraic : Cert.algebraic_KernelIdeal_ReferenceIdeal := by
  intro m ρ m' ρ' hpre hagree
  have hreal : ∀ c : Dev Cert.KernelIdeal.nD,
      (∀ i, IsReal ((m ((c : Thread Cert.KernelIdeal.nD Cert.KernelIdeal.τ).loc Cert.KernelIdeal.main_arg0) : Cert.KernelIdeal.S8192x1024.Idx → EReal) i))
      ∧ ∀ i, IsReal ((m ((c : Thread Cert.KernelIdeal.nD Cert.KernelIdeal.τ).loc Cert.KernelIdeal.main_arg1) : Cert.KernelIdeal.S8192x1024.Idx → EReal) i) :=
    fun c => Cert.Pre_finite_inputs.Finite.isReal_of_pre _ _ (hpre c)
  refine ⟨fun c => score (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ScoreArray.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefScore.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
